-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  Two layers of a mean-aggregating graph convolution, one output entry at a time, on the extended reals.

  A node's new feature vector is a linear map of the mean of its neighbours' vectors plus a linear map of its own
  vector plus a bias: entry `q` is  Σ_k a_k · Wl[q,k]  +  Σ_k x_k · Wr[q,k]  +  b_q , where `a` is the node's row of
  aggregated features and `x` its own row. The first layer then divides the row by its Euclidean length (kept
  away from zero by a small constant) and clamps every entry at zero; the second layer stops after the bias.

  The three summands can be added in either order, bias last or bias between the two products: addition on the
  extended reals is commutative and associative (with the convention ⊤ + ⊥ = ⊥), so the law needs no finiteness.
-/
import Idealize.ShloMosaic.Lib.ValueIdx
import Idealize.ShloMosaic.PureOps.Ideal.Laws

noncomputable section

namespace Sage

open Idealize.ShloMosaic Idealize.ShloMosaic.ValueIdx
open scoped BigOperators

/-- A 128 × 128 weight matrix, stored output-feature major. -/
abbrev Weights : Shape := ⟨2, ![128, 128]⟩
/-- A bias vector. -/
abbrev Bias : Shape := ⟨1, ![128]⟩
/-- The node features: one row of 128 per node. -/
abbrev Nodes : Shape := ⟨2, ![100000, 128]⟩

/-- Entry `q` of the linear layer from a row `ra` of aggregated features and a row `rx` of the node's own features:
    the two products first, the bias last. -/
def lin (ra rx : Fin 128 → EReal) (wl wr : Weights.Idx → EReal) (b : Bias.Idx → EReal) (q : Fin 128) : EReal :=
  (∑ k : Fin 128, ra k * wl (ix2 q k) + ∑ k : Fin 128, rx k * wr (ix2 q k)) + b (ix1 q)

/-- Adding the bias between the two products gives the same entry. -/
theorem lin_bias_between (ra rx : Fin 128 → EReal) (wl wr : Weights.Idx → EReal) (b : Bias.Idx → EReal) (q : Fin 128) :
    (∑ k : Fin 128, ra k * wl (ix2 q k) + b (ix1 q)) + ∑ k : Fin 128, rx k * wr (ix2 q k) = lin ra rx wl wr b q :=
  add_right_comm _ _ _

/-- Entry `q` of a row scaled to unit length and clamped at zero: the row's entry over the larger of the row's
    Euclidean length and the guard constant, then the larger of that and zero. -/
def unitRelu (row : Fin 128 → EReal) (q : Fin 128) : EReal :=
  max (Ideal.div (row q) (max (Ideal.sqrt (∑ k : Fin 128, row k * row k)) (Ideal.ofBits .f32 0x2B8CBCCC#32)))
    (Ideal.ofBits .f32 0x00000000#32)

/-- The first layer's whole result from the aggregated features `a`, the node features `x`, and the layer's weights. -/
def layer1 (a x : Nodes.Idx → EReal) (wl wr : Weights.Idx → EReal) (b : Bias.Idx → EReal) : Nodes.Idx → EReal := fun i =>
  unitRelu (lin (fun k => a (ix2 (n0 := 100000) (n1 := 128) (i 0) k)) (fun k => x (ix2 (n0 := 100000) (n1 := 128) (i 0) k)) wl wr b) (i 1)

/-- The second layer's whole result: the linear layer alone. -/
def layer2 (a x : Nodes.Idx → EReal) (wl wr : Weights.Idx → EReal) (b : Bias.Idx → EReal) : Nodes.Idx → EReal := fun i =>
  lin (fun k => a (ix2 (n0 := 100000) (n1 := 128) (i 0) k)) (fun k => x (ix2 (n0 := 100000) (n1 := 128) (i 0) k)) wl wr b (i 1)

theorem layer1_apply (a x : Nodes.Idx → EReal) (wl wr : Weights.Idx → EReal) (b : Bias.Idx → EReal) (p : Fin 100000) (q : Fin 128) :
    layer1 a x wl wr b (ix2 p q) = unitRelu (lin (fun k => a (ix2 p k)) (fun k => x (ix2 p k)) wl wr b) q := rfl

theorem layer2_apply (a x : Nodes.Idx → EReal) (wl wr : Weights.Idx → EReal) (b : Bias.Idx → EReal) (p : Fin 100000) (q : Fin 128) :
    layer2 a x wl wr b (ix2 p q) = lin (fun k => a (ix2 p k)) (fun k => x (ix2 p k)) wl wr b q := rfl

end Sage

end
-- ==== Proof.Layers.lean ====
/-
  The reference read as two layers of the graph convolution.

  The reference aggregates the input features over the edges, applies the linear layer (its bias added between the
  two matrix products), normalises each row and clamps at zero; then aggregates those hidden features over the same
  edges and applies the second linear layer. Read one operation at a time, the linear stages are sums over the 128
  input features of a row, the normalisation reads the row's sum of squares, and the two transposes swap the
  weights' coordinates; the aggregation is the same chain of host operations both times.
-/
import proofs.«136180_j90606630076834_1_alg».proof.Proof.Gen.ReferenceIdeal.Read
import proofs.«136180_j90606630076834_1_alg».proof.Proof.Spec
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal)) (x7 : (⟨S128x128, .f32⟩ : BufTy).Contents (Elt Ideal))

/-! ## The two layers, entry by entry -/

/-- The first layer's linear stage at `(p, q)`: the reference adds the bias between the two products, which is the same
    extended real as adding it last. -/
theorem linear1_apply (p : Fin 100000) (q : Fin 128) :
    val_main_v30 (F := Ideal) x0 x1 x2 x3 x4 (ix2 p q)
      = Sage.lin (fun k => val_main_v22 (F := Ideal) x0 x1 (ix2 p k)) (fun k => x0 (ix2 p k)) x2 x4 x3 q := by
  rw [← Sage.lin_bias_between]
  rw [val_main_v30_apply, val_main_v27_apply, val_main_v24_apply, val_main_v26_apply, val_main_v25_apply, val_main_v29_apply]
  generalize val_main_v22 (F := Ideal) x0 x1 = A
  simp only [val_main_v23_apply, val_main_v28_apply, Ideal.addf_def]
  have e1 : ∀ k : Fin 128, lidx_main_v24 (ix2 p q) k = ix2 p k := fun k => funext fun a => Fin.ext (by match a with | ⟨0, _⟩ => rfl | ⟨1, _⟩ => rfl)
  have e2 : ∀ k : Fin 128, idx_main_v23 (ridx_main_v24 (ix2 p q) k) = ix2 q k := fun k => funext fun a => Fin.ext (by match a with | ⟨0, _⟩ => rfl | ⟨1, _⟩ => rfl)
  have e3 : ∀ k : Fin 128, lidx_main_v29 (ix2 p q) k = ix2 p k := fun k => funext fun a => Fin.ext (by match a with | ⟨0, _⟩ => rfl | ⟨1, _⟩ => rfl)
  have e4 : ∀ k : Fin 128, idx_main_v28 (ridx_main_v29 (ix2 p q) k) = ix2 q k := fun k => funext fun a => Fin.ext (by match a with | ⟨0, _⟩ => rfl | ⟨1, _⟩ => rfl)
  have e5 : idx_main_v25 (idx_main_v26 (ix2 p q)) = ix1 q := funext fun a => Fin.ext (by match a with | ⟨0, _⟩ => rfl)
  simp only [e1, e2, e3, e4, e5]

/-- The row's sum of squares of the linear stage: the host's sum from the zero initial value. -/
theorem rowsq_apply (p : Fin 100000) :
    val_main_v32 (F := Ideal) x0 x1 x2 x3 x4 (ix1 p)
      = ∑ k : Fin 128, val_main_v30 (F := Ideal) x0 x1 x2 x3 x4 (ix2 p k) * val_main_v30 (F := Ideal) x0 x1 x2 x3 x4 (ix2 p k) := by
  rw [val_main_v32_apply]
  have e : ∀ k : Fin 128, idx_main_v32 (ix1 p) k = ix2 p k := fun k => funext fun a => Fin.ext (by match a with | ⟨0, _⟩ => rfl | ⟨1, _⟩ => rfl)
  refine (congrArg (· + _) (show (val_main_cst_4 (F := Ideal)) (Shape.Idx.first h_S_) = (0 : EReal) from Ideal.ofBits_zero_f32)).trans ?_
  rw [zero_add]
  refine Finset.sum_congr rfl fun k _ => ?_
  rw [e k]
  exact val_main_v31_apply (F := Ideal) x0 x1 x2 x3 x4 (ix2 p k)

/-- The row's length bounded below by the guard constant, kept as a column. -/
theorem guard_apply (p : Fin 100000) (u : Fin 1) :
    val_main_v36 (F := Ideal) x0 x1 x2 x3 x4 (ix2 p u)
      = max (Ideal.sqrt (val_main_v32 (F := Ideal) x0 x1 x2 x3 x4 (ix1 p))) (Ideal.ofBits .f32 0x2B8CBCCC#32) := by
  rw [val_main_v36_apply, val_main_v34_apply, val_main_v33_apply, val_main_v35_apply, val_main_cst_5_apply]
  have e : idx_main_v33 (ix2 p u) = ix1 p := funext fun a => Fin.ext (by match a with | ⟨0, _⟩ => rfl)
  rw [e]
  simp only [Ideal.maximumf_def, Ideal.hostUnary_sqrt_def, Ideal.ofBits_def]

/-- The hidden features at `(p, q)`: the linear stage over the row's guarded length, clamped at zero. -/
theorem hidden_apply (p : Fin 100000) (q : Fin 128) :
    val_main_v39 (F := Ideal) x0 x1 x2 x3 x4 (ix2 p q)
      = max (Ideal.div (val_main_v30 (F := Ideal) x0 x1 x2 x3 x4 (ix2 p q)) (val_main_v36 (F := Ideal) x0 x1 x2 x3 x4 (ix2 p (0 : Fin 1))))
          (Ideal.ofBits .f32 0x00000000#32) := by
  rw [val_main_v39_apply, val_main_v38_apply, val_main_v37_apply, val_main_call0_v0_apply, val_main_call0_cst_apply]
  have e : idx_main_v37 (ix2 p q) = ix2 p (0 : Fin 1) := funext fun a => Fin.ext (by match a with | ⟨0, _⟩ => rfl | ⟨1, _⟩ => rfl)
  rw [e]
  simp only [Ideal.maximumf_def, Ideal.hostDivf_def, Ideal.ofBits_def]

/-- The reference's hidden features (after the normalisation and the clamp) are the first layer of the aggregated
    input features and the input features. -/
theorem hidden_eq :
    val_main_v39 (F := Ideal) x0 x1 x2 x3 x4 = Sage.layer1 (val_main_v22 (F := Ideal) x0 x1) x0 x2 x4 x3 := by
  funext i
  obtain ⟨p, q, rfl⟩ : ∃ (p : Fin 100000) (q : Fin 128), i = ix2 p q := ⟨i 0, i 1, eq_ix2 i⟩
  rw [Sage.layer1_apply, hidden_apply, guard_apply, rowsq_apply]
  simp only [linear1_apply]
  rfl

/-- The reference's result is the second layer of its second aggregate and its hidden features. -/
theorem out_eq :
    val_main_v66 (F := Ideal) x0 x1 x2 x3 x4 x5 x6 x7
      = Sage.layer2 (val_main_v58 (F := Ideal) x0 x1 x2 x3 x4) (val_main_v39 (F := Ideal) x0 x1 x2 x3 x4) x5 x7 x6 := by
  funext i
  obtain ⟨p, q, rfl⟩ : ∃ (p : Fin 100000) (q : Fin 128), i = ix2 p q := ⟨i 0, i 1, eq_ix2 i⟩
  rw [Sage.layer2_apply, ← Sage.lin_bias_between]
  rw [val_main_v66_apply, val_main_v63_apply, val_main_v60_apply, val_main_v62_apply, val_main_v61_apply, val_main_v65_apply]
  generalize val_main_v58 (F := Ideal) x0 x1 x2 x3 x4 = A
  generalize val_main_v39 (F := Ideal) x0 x1 x2 x3 x4 = H
  simp only [val_main_v59_apply, val_main_v64_apply, Ideal.addf_def]
  have e1 : ∀ k : Fin 128, lidx_main_v60 (ix2 p q) k = ix2 p k := fun k => funext fun a => Fin.ext (by match a with | ⟨0, _⟩ => rfl | ⟨1, _⟩ => rfl)
  have e2 : ∀ k : Fin 128, idx_main_v59 (ridx_main_v60 (ix2 p q) k) = ix2 q k := fun k => funext fun a => Fin.ext (by match a with | ⟨0, _⟩ => rfl | ⟨1, _⟩ => rfl)
  have e3 : ∀ k : Fin 128, lidx_main_v65 (ix2 p q) k = ix2 p k := fun k => funext fun a => Fin.ext (by match a with | ⟨0, _⟩ => rfl | ⟨1, _⟩ => rfl)
  have e4 : ∀ k : Fin 128, idx_main_v64 (ridx_main_v65 (ix2 p q) k) = ix2 q k := fun k => funext fun a => Fin.ext (by match a with | ⟨0, _⟩ => rfl | ⟨1, _⟩ => rfl)
  have e5 : idx_main_v61 (idx_main_v62 (ix2 p q)) = ix1 q := funext fun a => Fin.ext (by match a with | ⟨0, _⟩ => rfl)
  simp only [e1, e2, e3, e4, e5]

/-! ## The aggregation, kept closed -/

section Aggregate
variable {F : FTy → Type} [FloatOps F]

/-- The mean of the features `h` over each node's incoming edges (a gather along the edge sources, a scatter-add
    along the edge targets, divided by the number of incoming edges bounded below by one): the same host operations
    both times the reference aggregates, so they are named once and never opened. -/
def aggOf (h : (⟨S100000x128, .f32⟩ : BufTy).Contents (Elt F)) (e : (⟨S2x1600000, .i32⟩ : BufTy).Contents (Elt F)) : (⟨S100000x128, .f32⟩ : BufTy).Contents (Elt F) :=
  Host.divf (Host.scatterAdd scatter_S100000x128_S1600000x1_S1600000x128_1_0_0_1 (val_main_v47 (F := F)) (val_main_v48 (F := F) e)
      (Host.gather gather_S100000x128_S1600000x1_S1600000x128_1_0_n_n_0_1_1128 h (val_main_v45 (F := F) e)))
    (val_main_v57 (F := F) e)

/-- The second aggregate is the aggregation of the hidden features. -/
theorem agg2_eq (y0 : (⟨S100000x128, .f32⟩ : BufTy).Contents (Elt F)) (y1 : (⟨S2x1600000, .i32⟩ : BufTy).Contents (Elt F)) (y2 : (⟨S128x128, .f32⟩ : BufTy).Contents (Elt F)) (y3 : (⟨S128, .f32⟩ : BufTy).Contents (Elt F)) (y4 : (⟨S128x128, .f32⟩ : BufTy).Contents (Elt F)) :
    val_main_v58 (F := F) y0 y1 y2 y3 y4 = aggOf (val_main_v39 (F := F) y0 y1 y2 y3 y4) y1 := rfl

/-- The first aggregate is the aggregation of the input features (its index computations are the second's, line by line). -/
theorem agg1_eq (y0 : (⟨S100000x128, .f32⟩ : BufTy).Contents (Elt F)) (y1 : (⟨S2x1600000, .i32⟩ : BufTy).Contents (Elt F)) :
    val_main_v22 (F := F) y0 y1 = aggOf y0 y1 := rfl

end Aggregate

/-! ## The whole reference as one function of its arguments -/

/-- Two layers: aggregate, first layer, aggregate again, second layer. -/
def result : (⟨S100000x128, .f32⟩ : BufTy).Contents (Elt Ideal) :=
  Sage.layer2 (aggOf (Sage.layer1 (aggOf x0 x1) x0 x2 x4 x3) x1) (Sage.layer1 (aggOf x0 x1) x0 x2 x4 x3) x5 x7 x6

theorem result_eq : val_main_v66 (F := Ideal) x0 x1 x2 x3 x4 x5 x6 x7 = result x0 x1 x2 x3 x4 x5 x6 x7 := by
  rw [out_eq, agg2_eq, hidden_eq, agg1_eq]
  rfl

end Cert.ReferenceIdeal.Layers

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.Body.lean ====
/-
  What the two kernel bodies store in a 5000 × 128 output tile, entry by entry, on the extended reals.

  Both bodies load a tile of aggregated features and a tile of node features (5000 rows each), two 128 × 128
  weight matrices and a bias, change the four matrix operands' format (the identity on the extended reals),
  transpose the weights, and form  tile · Wlᵀ + tile' · Wrᵀ + bias  with two matrix products into zero
  accumulators. So entry (r, q) is  Σ_k a[r,k]·Wl[q,k] + Σ_k x[r,k]·Wr[q,k] + b[q] : it depends on row r of the two
  tiles only. The first body then sums the squares along each row, takes the square root, bounds it below by the
  guard constant, divides the row by it and clamps at zero; the second body stores the linear part as it is.
-/
import proofs.«136180_j90606630076834_1_alg».proof.Proof.Gen.KernelIdeal.Skeleton
import proofs.«136180_j90606630076834_1_alg».proof.Proof.LibRowOps
import proofs.«136180_j90606630076834_1_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## A tile's matrix product, entry by entry -/

theorem lhs_axis0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs_axis0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_axis1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 tile times a 128 × 128 matrix into a zero accumulator: entry `(p, q)` is the sum over `k` of the
    tile's `(p, k)` times the matrix's `(k, q)`. -/
theorem tile_matmul {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A weight matrix after the change of format (the identity on the extended reals) and the transpose reads, at
    `(k, q)`, the matrix at `(q, k)`. -/
theorem weightsT_apply (w : Vec Ideal S128x128 .f32) (k q : Fin 128) :
    transpose S128x128 [1, 0] (truncf (F := Ideal) .bf16 w bitsLt_bf16_f32) transposes_S128x128_p1_0_S128x128 (ix2 k q) = w (ix2 q k) :=
  transpose_ix2_apply _ _ k q

/-! ## What the two bodies store, entry by entry -/

/-- The second layer's body: entry `(r, q)` of the stored tile is the linear layer of row `r` of the two loaded tiles. -/
theorem pay1_apply (x0 x1 : Vec Ideal S5000x128 .f32) (w2 w4 : Vec Ideal S128x128 .f32) (b3 : Vec Ideal S128 .f32) (r : Fin 5000) (q : Fin 128) :
    k1_pay1 (F := Ideal) x0 x1 w2 w4 b3 (ix2 r q) = Sage.lin (fun k => x0 (ix2 r k)) (fun k => x1 (ix2 r k)) w2 w4 b3 q := by
  unfold k1_pay1 Sage.lin
  simp only [addf_apply, shapeCast_self]
  rw [tile_matmul, tile_matmul, broadcastTo_1b_ab_apply, shapeCast_a_1a_apply]
  simp only [truncf_apply]
  refine congrArg₂ (· + ·) (congrArg₂ (· + ·) (Finset.sum_congr rfl fun k _ => ?_) (Finset.sum_congr rfl fun k _ => ?_)) rfl
  · exact congrArg (x0 (ix2 r k) * ·) (weightsT_apply w2 k q)
  · exact congrArg (x1 (ix2 r k) * ·) (weightsT_apply w4 k q)

/-- The linear part of the first layer's body: the value its normalisation is applied to. -/
def pre0 (x0 x1 : Vec Ideal S5000x128 .f32) (w2 w4 : Vec Ideal S128x128 .f32) (b3 : Vec Ideal S128 .f32) : FVec Ideal S5000x128 .f32 :=
  addf (addf (matmul dot_S5000x128_S128x128_S5000x128_1_0_0_1_n_n none (truncf .bf16 (shapeCast S5000x128 x0 shapeCasts_S5000x128_S5000x128) bitsLt_bf16_f32) (transpose S128x128 [1, 0] (truncf .bf16 w2 bitsLt_bf16_f32) transposes_S128x128_p1_0_S128x128) (constant S5000x128 .f32 0x00000000#32))
    (matmul dot_S5000x128_S128x128_S5000x128_1_0_0_1_n_n none (truncf .bf16 x1 bitsLt_bf16_f32) (transpose S128x128 [1, 0] (truncf .bf16 w4 bitsLt_bf16_f32) transposes_S128x128_p1_0_S128x128) (constant S5000x128 .f32 0x00000000#32)))
    (broadcastTo S5000x128 (shapeCast S1x128 b3 shapeCasts_S128_S1x128) broadcasts_S1x128_S5000x128)

theorem pre0_apply (x0 x1 : Vec Ideal S5000x128 .f32) (w2 w4 : Vec Ideal S128x128 .f32) (b3 : Vec Ideal S128 .f32) (r : Fin 5000) (q : Fin 128) :
    pre0 x0 x1 w2 w4 b3 (ix2 r q) = Sage.lin (fun k => x0 (ix2 r k)) (fun k => x1 (ix2 r k)) w2 w4 b3 q := by
  unfold pre0 Sage.lin
  simp only [addf_apply, shapeCast_self]
  rw [tile_matmul, tile_matmul, broadcastTo_1b_ab_apply, shapeCast_a_1a_apply]
  simp only [truncf_apply]
  refine congrArg₂ (· + ·) (congrArg₂ (· + ·) (Finset.sum_congr rfl fun k _ => ?_) (Finset.sum_congr rfl fun k _ => ?_)) rfl
  · exact congrArg (x0 (ix2 r k) * ·) (weightsT_apply w2 k q)
  · exact congrArg (x1 (ix2 r k) * ·) (weightsT_apply w4 k q)

/-- The first layer's body: entry `(r, q)` of the stored tile is the linear layer of row `r`, divided by the row's
    guarded length and clamped at zero. -/
theorem pay0_apply (x0 x1 : Vec Ideal S5000x128 .f32) (w2 w4 : Vec Ideal S128x128 .f32) (b3 : Vec Ideal S128 .f32) (r : Fin 5000) (q : Fin 128) :
    k0_pay1 (F := Ideal) x0 x1 w2 w4 b3 (ix2 r q) = Sage.unitRelu (Sage.lin (fun k => x0 (ix2 r k)) (fun k => x1 (ix2 r k)) w2 w4 b3) q := by
  have e : k0_pay1 (F := Ideal) x0 x1 w2 w4 b3 =
      maximumf (divf (pre0 x0 x1 w2 w4 b3) (broadcastTo S5000x128 (maximumf (sqrt (shapeCast S5000x1 (multiReduction .add [1] S5000 (mulf (pre0 x0 x1 w2 w4 b3) (pre0 x0 x1 w2 w4 b3)) 0x00000000#32 reduces_S5000x128_S5000 (.inl rfl) rfl) shapeCasts_S5000_S5000x1)) (broadcast S5000x1 (Scalar.ofBits (F := Ideal) .f32 0x2B8CBCCC#32))) broadcasts_S5000x1_S5000x128))
        (broadcast S5000x128 (Scalar.ofBits (F := Ideal) .f32 0x00000000#32)) := rfl
  rw [e]
  unfold Sage.unitRelu
  simp only [maximumf_apply, divf_apply, broadcast_apply]
  rw [RowOps.broadcastTo_a1_ab_apply]
  simp only [maximumf_apply, broadcast_apply]
  rw [show ∀ v : FVec Ideal S5000x1 .f32, sqrt v (ix2 r (0 : Fin 1)) = Ideal.sqrt (v (ix2 r (0 : Fin 1))) from fun _ => rfl]
  rw [RowOps.shapeCast_a_a1_apply]
  have hs := RowOps.multiReduction_add_row (mulf (pre0 x0 x1 w2 w4 b3) (pre0 x0 x1 w2 w4 b3)) 0x00000000#32 reduces_S5000x128_S5000 (.inl rfl) rfl r
  simp only [mulf_apply, pre0_apply] at hs
  exact congrArg₂ (fun a s => max (Ideal.div a (max (Ideal.sqrt s) (Ideal.ofBits .f32 0x2B8CBCCC#32))) (Ideal.ofBits .f32 0x00000000#32))
    (pre0_apply x0 x1 w2 w4 b3 r q) hs

end Cert.KernelIdeal.Body
end
-- ==== Proof.Regions.lean ====
/-
  Each pallas_call's result array as one function of the arrays it is entered with.

  Both calls walk a grid of twenty points; point t loads rows 5000·t … 5000·t + 4999 of the aggregated features and
  of the node features, the whole weight matrices and the bias (their block index stays zero), and writes rows
  5000·t … of the result. An entry of the stored tile depends on its own row of the two loaded tiles only, so
  point t writes exactly block t of the layer applied to the WHOLE arrays; the twenty blocks are disjoint and
  cover the result array (row r lies in block r / 5000), so after the last point the array is the layer of the
  entry arrays: the first layer for the first call, the second layer for the second.
-/
import proofs.«136180_j90606630076834_1_alg».proof.Proof.Gen.KernelIdeal.Frame
import proofs.«136180_j90606630076834_1_alg».proof.Proof.Body
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a; rfl

/-! ## One tile against the whole arrays -/

/-- If the two loaded tiles are rows `5000·T …` of the arrays `A` and `X`, the first body's stored entry at the tile's
    `(r, q)` is the first layer's entry at the array's `(5000·T + r, q)`. -/
theorem tile_layer1 (A X : Sage.Nodes.Idx → EReal) (Wl Wr : Sage.Weights.Idx → EReal) (B : Sage.Bias.Idx → EReal)
    (x0 x1 : Vec Ideal S5000x128 .f32) (w2 w4 : Vec Ideal S128x128 .f32) (b3 : Vec Ideal S128 .f32) (T : ℕ)
    (h0 : ∀ (r : Fin 5000) (k : Fin 128) (p : Fin 100000), p.val = T * 5000 + r.val → x0 (ix2 r k) = A (ix2 p k))
    (h1 : ∀ (r : Fin 5000) (k : Fin 128) (p : Fin 100000), p.val = T * 5000 + r.val → x1 (ix2 r k) = X (ix2 p k))
    (h2 : w2 = Wl) (h4 : w4 = Wr) (h3 : b3 = B)
    (j : S5000x128.Idx) (i : Sage.Nodes.Idx) (hi0 : (i 0).val = T * 5000 + (j 0).val) (hi1 : (i 1).val = (j 1).val) :
    k0_pay1 (F := Ideal) x0 x1 w2 w4 b3 j = Sage.layer1 A X Wl Wr B i := by
  subst h2 h4 h3
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hq : q' = q := Fin.ext hi1
  subst hq
  rw [Body.pay0_apply, Sage.layer1_apply]
  have e0 : (fun k => x0 (ix2 r k)) = fun k => A (ix2 p k) := funext fun k => h0 r k p hi0
  have e1 : (fun k => x1 (ix2 r k)) = fun k => X (ix2 p k) := funext fun k => h1 r k p hi0
  rw [e0, e1]

/-- The same for the second body and the second layer. -/
theorem tile_layer2 (A X : Sage.Nodes.Idx → EReal) (Wl Wr : Sage.Weights.Idx → EReal) (B : Sage.Bias.Idx → EReal)
    (x0 x1 : Vec Ideal S5000x128 .f32) (w2 w4 : Vec Ideal S128x128 .f32) (b3 : Vec Ideal S128 .f32) (T : ℕ)
    (h0 : ∀ (r : Fin 5000) (k : Fin 128) (p : Fin 100000), p.val = T * 5000 + r.val → x0 (ix2 r k) = A (ix2 p k))
    (h1 : ∀ (r : Fin 5000) (k : Fin 128) (p : Fin 100000), p.val = T * 5000 + r.val → x1 (ix2 r k) = X (ix2 p k))
    (h2 : w2 = Wl) (h4 : w4 = Wr) (h3 : b3 = B)
    (j : S5000x128.Idx) (i : Sage.Nodes.Idx) (hi0 : (i 0).val = T * 5000 + (j 0).val) (hi1 : (i 1).val = (j 1).val) :
    k1_pay1 (F := Ideal) x0 x1 w2 w4 b3 j = Sage.layer2 A X Wl Wr B i := by
  subst h2 h4 h3
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hq : q' = q := Fin.ext hi1
  subst hq
  rw [Body.pay1_apply, Sage.layer2_apply]
  have e0 : (fun k => x0 (ix2 r k)) = fun k => A (ix2 p k) := funext fun k => h0 r k p hi0
  have e1 : (fun k => x1 (ix2 r k)) = fun k => X (ix2 p k) := funext fun k => h1 r k p hi0
  rw [e0, e1]

variable (V : (c : Dev nD) → (b : Ref sig .tc) → Buf (Elt Ideal) ((c : Thread nD τ).loc b))

/-! ## The first pallas_call: its result array is the first layer of the arrays it is entered with -/

/-- The first layer of the arrays region 0 finds: aggregated features in `main_v22`, node features in `main_arg0`. -/
def G0 (c : Dev nD) : Buf (Elt Ideal) ((c : Thread nD τ).loc main_v23) :=
  Sage.layer1 (V c main_v22) (V c main_arg0) (V c main_arg2) (V c main_arg4) (V c main_arg3)

/-- The index maps over the grid: the two feature windows and the output move one tile of rows per point, the
    weights and the bias stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` of the first call writes back is block `t` of the first layer of the entry arrays. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨a0, a1, b0, b1, c0, c1, d0, e0, e1, f0, f1⟩ := idx_facts0 t
  funext j
  have hw2 : (iblk0 V c 2 t : Vec Ideal S128x128 .f32) = V c main_arg2 := by
    funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hw4 : (iblk0 V c 4 t : Vec Ideal S128x128 .f32) = V c main_arg4 := by
    funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hb3 : (iblk0 V c 3 t : Vec Ideal S128 .f32) = V c main_arg3 := by
    funext y
    show V c main_arg3 (((cfg0.win 3).blk t).view.emb y) = V c main_arg3 y
    refine congrArg _ (funext fun a => Fin.ext ?_)
    match a with
    | ⟨0, _⟩ => show win0_3.index t (0 : Fin 1) * 128 + 1 * (y 0).val = (y 0).val; omega
  show k0_pay1 (F := Ideal) (iblk0 V c 0 t) (iblk0 V c 1 t) (iblk0 V c 2 t) (iblk0 V c 4 t) (iblk0 V c 3 t) j
    = G0 V c (((cfg0.win 5).blk t).view.emb j)
  unfold G0
  refine tile_layer1 (V c main_v22) (V c main_arg0) (V c main_arg2) (V c main_arg4) (V c main_arg3)
    (iblk0 V c 0 t) (iblk0 V c 1 t) (iblk0 V c 2 t) (iblk0 V c 4 t) (iblk0 V c 3 t) t.val ?_ ?_ hw2 hw4 hb3 j
    (((cfg0.win 5).blk t).view.emb j) ?_ ?_
  · intro r k p hp
    show V c main_v22 (((cfg0.win 0).blk t).view.emb (ix2 r k)) = V c main_v22 (ix2 p k)
    refine congrArg _ (funext fun a => Fin.ext ?_)
    match a with
    | ⟨0, _⟩ => show win0_0.index t (0 : Fin 2) * 5000 + 1 * r.val = p.val; omega
    | ⟨1, _⟩ => show win0_0.index t (1 : Fin 2) * 128 + 1 * k.val = k.val; omega
  · intro r k p hp
    show V c main_arg0 (((cfg0.win 1).blk t).view.emb (ix2 r k)) = V c main_arg0 (ix2 p k)
    refine congrArg _ (funext fun a => Fin.ext ?_)
    match a with
    | ⟨0, _⟩ => show win0_1.index t (0 : Fin 2) * 5000 + 1 * r.val = p.val; omega
    | ⟨1, _⟩ => show win0_1.index t (1 : Fin 2) * 128 + 1 * k.val = k.val; omega
  · show win0_5.index t (0 : Fin 2) * 5000 + 1 * (j 0).val = t.val * 5000 + (j 0).val; omega
  · show win0_5.index t (1 : Fin 2) * 128 + 1 * (j 1).val = (j 1).val; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row of the result array lies in the tile of the point `row / 5000`: the twenty tiles cover the array. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := by show (i 0).val / 5000 < 20; omega
  obtain ⟨a0, a1, b0, b1, c0, c1, d0, e0, e1, f0, f1⟩ := idx_facts0 ⟨(i 0).val / 5000, hlt⟩
  have f0' : win0_5.index ⟨(i 0).val / 5000, hlt⟩ (0 : Fin 2) = (i 0).val / 5000 := f0
  refine ⟨⟨(i 0).val / 5000, hlt⟩, flush0_5 _, ?_⟩
  rw [mem_blk0]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; omega
  | ⟨1, _⟩ => show win0_5.index ⟨(i 0).val / 5000, hlt⟩ (1 : Fin 2) * 128 ≤ (i 1).val ∧ (i 1).val < win0_5.index ⟨(i 0).val / 5000, hlt⟩ (1 : Fin 2) * 128 + 128; omega

/-- After the region's last point its result array is `G0` of the arrays it was entered with. -/
theorem final0 (c : Dev nD) : (dat0 V c).arrAt 5 cfg0.N = G0 V c :=
  (dat0 V c).arrAt_eq_of_cover 5 (G0 V c) (fun t _ => flushed0_eq V c t) cover0

/-- The first call's result is the first layer of whatever its five entry arrays are. -/
theorem G0_of (c : Dev nD) {a : Buf (Elt Ideal) ((c : Thread nD τ).loc main_v22)} {x : Buf (Elt Ideal) ((c : Thread nD τ).loc main_arg0)} {wl : Buf (Elt Ideal) ((c : Thread nD τ).loc main_arg2)} {wr : Buf (Elt Ideal) ((c : Thread nD τ).loc main_arg4)} {b : Buf (Elt Ideal) ((c : Thread nD τ).loc main_arg3)}
    (ha : V c main_v22 = a) (hx : V c main_arg0 = x) (hl : V c main_arg2 = wl) (hr : V c main_arg4 = wr) (hb : V c main_arg3 = b) :
    G0 V c = Sage.layer1 a x wl wr b := by
  subst ha hx hl hr hb
  rfl

/-! ## The second pallas_call: its result array is the second layer of the arrays it is entered with -/

/-- The second layer of the arrays region 1 finds: aggregated features in `main_v42`, the first layer's result in
    `main_v23`. -/
def G1 (c : Dev nD) : Buf (Elt Ideal) ((c : Thread nD τ).loc main_v43) :=
  Sage.layer2 (V c main_v42) (V c main_v23) (V c main_arg5) (V c main_arg7) (V c main_arg6)

/-- The index maps over the second grid: as for the first call. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` of the second call writes back is block `t` of the second layer of the entry arrays. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨a0, a1, b0, b1, c0, c1, d0, e0, e1, f0, f1⟩ := idx_facts1 t
  funext j
  have hw2 : (iblk1 V c 2 t : Vec Ideal S128x128 .f32) = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hw4 : (iblk1 V c 4 t : Vec Ideal S128x128 .f32) = V c main_arg7 := by
    funext y
    show V c main_arg7 (((cfg1.win 4).blk t).view.emb y) = V c main_arg7 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hb3 : (iblk1 V c 3 t : Vec Ideal S128 .f32) = V c main_arg6 := by
    funext y
    show V c main_arg6 (((cfg1.win 3).blk t).view.emb y) = V c main_arg6 y
    refine congrArg _ (funext fun a => Fin.ext ?_)
    match a with
    | ⟨0, _⟩ => show win1_3.index t (0 : Fin 1) * 128 + 1 * (y 0).val = (y 0).val; omega
  show k1_pay1 (F := Ideal) (iblk1 V c 0 t) (iblk1 V c 1 t) (iblk1 V c 2 t) (iblk1 V c 4 t) (iblk1 V c 3 t) j
    = G1 V c (((cfg1.win 5).blk t).view.emb j)
  unfold G1
  refine tile_layer2 (V c main_v42) (V c main_v23) (V c main_arg5) (V c main_arg7) (V c main_arg6)
    (iblk1 V c 0 t) (iblk1 V c 1 t) (iblk1 V c 2 t) (iblk1 V c 4 t) (iblk1 V c 3 t) t.val ?_ ?_ hw2 hw4 hb3 j
    (((cfg1.win 5).blk t).view.emb j) ?_ ?_
  · intro r k p hp
    show V c main_v42 (((cfg1.win 0).blk t).view.emb (ix2 r k)) = V c main_v42 (ix2 p k)
    refine congrArg _ (funext fun a => Fin.ext ?_)
    match a with
    | ⟨0, _⟩ => show win1_0.index t (0 : Fin 2) * 5000 + 1 * r.val = p.val; omega
    | ⟨1, _⟩ => show win1_0.index t (1 : Fin 2) * 128 + 1 * k.val = k.val; omega
  · intro r k p hp
    show V c main_v23 (((cfg1.win 1).blk t).view.emb (ix2 r k)) = V c main_v23 (ix2 p k)
    refine congrArg _ (funext fun a => Fin.ext ?_)
    match a with
    | ⟨0, _⟩ => show win1_1.index t (0 : Fin 2) * 5000 + 1 * r.val = p.val; omega
    | ⟨1, _⟩ => show win1_1.index t (1 : Fin 2) * 128 + 1 * k.val = k.val; omega
  · show win1_5.index t (0 : Fin 2) * 5000 + 1 * (j 0).val = t.val * 5000 + (j 0).val; omega
  · show win1_5.index t (1 : Fin 2) * 128 + 1 * (j 1).val = (j 1).val; omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every row of the result array lies in the tile of the point `row / 5000`: the twenty tiles cover the array. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < cfg1.N := by show (i 0).val / 5000 < 20; omega
  obtain ⟨a0, a1, b0, b1, c0, c1, d0, e0, e1, f0, f1⟩ := idx_facts1 ⟨(i 0).val / 5000, hlt⟩
  have f0' : win1_5.index ⟨(i 0).val / 5000, hlt⟩ (0 : Fin 2) = (i 0).val / 5000 := f0
  refine ⟨⟨(i 0).val / 5000, hlt⟩, flush1_5 _, ?_⟩
  rw [mem_blk1]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; omega
  | ⟨1, _⟩ => show win1_5.index ⟨(i 0).val / 5000, hlt⟩ (1 : Fin 2) * 128 ≤ (i 1).val ∧ (i 1).val < win1_5.index ⟨(i 0).val / 5000, hlt⟩ (1 : Fin 2) * 128 + 128; omega

/-- After the region's last point its result array is `G1` of the arrays it was entered with. -/
theorem final1 (c : Dev nD) : (dat1 V c).arrAt 5 cfg1.N = G1 V c :=
  (dat1 V c).arrAt_eq_of_cover 5 (G1 V c) (fun t _ => flushed1_eq V c t) cover1

/-- The second call's result is the second layer of whatever its five entry arrays are. -/
theorem G1_of (c : Dev nD) {a : Buf (Elt Ideal) ((c : Thread nD τ).loc main_v42)} {x : Buf (Elt Ideal) ((c : Thread nD τ).loc main_v23)} {wl : Buf (Elt Ideal) ((c : Thread nD τ).loc main_arg5)} {wr : Buf (Elt Ideal) ((c : Thread nD τ).loc main_arg7)} {b : Buf (Elt Ideal) ((c : Thread nD τ).loc main_arg6)}
    (ha : V c main_v42 = a) (hx : V c main_v23 = x) (hl : V c main_arg5 = wl) (hr : V c main_arg7 = wr) (hb : V c main_arg6 = b) :
    G1 V c = Sage.layer2 a x wl wr b := by
  subst ha hx hl hr hb
  rfl

end Cert.KernelIdeal.Regions

end
-- ==== Proof.HostSide.lean ====
/-
  The kernel program's host stretches and how its two calls chain.

  Before the first call the host cuts the edge list into sources and targets and aggregates the input features over
  the edges; between the calls it aggregates the first call's result over the same edges. Neither stretch writes an
  argument, the second does not write the first call's result, and the sources and targets computed in the first
  stretch are still there for the second. Each aggregation is, operation for operation, the one the reference
  applies, so it is carried as one closed function and never opened. Put together: the result buffer after the run
  is the second layer of (the aggregation of h, h) with h the first layer of (the aggregation of x, x) — the
  reference's function of the launch contents of the eight arguments.
-/
import proofs.«136180_j90606630076834_1_alg».proof.Proof.Regions
import proofs.«136180_j90606630076834_1_alg».proof.Proof.Layers
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- No operation of the named host stretch writes the buffer in the goal. -/
local macro "unwritten " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The first call's entry: the arguments as launched, and the first aggregate -/

theorem entry0_arg0 (c : Dev nD) : V1 m ρ c main_arg0 = m ((c : Thread nD τ).loc main_arg0) :=
  (StableHlo.after_of_forall_not_mem (b := Proc.devRef .tc main_arg0) _ _ (by unwritten hostOps0)).trans rfl
theorem entry0_arg2 (c : Dev nD) : V1 m ρ c main_arg2 = m ((c : Thread nD τ).loc main_arg2) :=
  (StableHlo.after_of_forall_not_mem (b := Proc.devRef .tc main_arg2) _ _ (by unwritten hostOps0)).trans rfl
theorem entry0_arg3 (c : Dev nD) : V1 m ρ c main_arg3 = m ((c : Thread nD τ).loc main_arg3) :=
  (StableHlo.after_of_forall_not_mem (b := Proc.devRef .tc main_arg3) _ _ (by unwritten hostOps0)).trans rfl
theorem entry0_arg4 (c : Dev nD) : V1 m ρ c main_arg4 = m ((c : Thread nD τ).loc main_arg4) :=
  (StableHlo.after_of_forall_not_mem (b := Proc.devRef .tc main_arg4) _ _ (by unwritten hostOps0)).trans rfl

/-- The first host stretch leaves in `main_v22` the aggregation of the input features over the edge list: operation
    for operation the reference's. -/
theorem entry0_agg (c : Dev nD) :
    V1 m ρ c main_v22 = Cert.ReferenceIdeal.Layers.aggOf (F := Ideal) (m ((c : Thread nD τ).loc main_arg0)) (m ((c : Thread nD τ).loc main_arg1)) := by
  show StableHlo.after hostOps0 (W0 m ρ c) (Proc.devRef .tc main_v22) = _
  have h0 : W0 m ρ c (Proc.devRef .tc main_arg0) = m ((c : Thread nD τ).loc main_arg0) := rfl
  have h1 : W0 m ρ c (Proc.devRef .tc main_arg1) = m ((c : Thread nD τ).loc main_arg1) := rfl
  generalize W0 m ρ c = Wv at h0 h1 ⊢
  after_results_simp
  rw [h0, h1]
  rfl

/-- The edge sources and targets the first stretch cuts out of the edge list, still there after the first call. -/
theorem sources_eq (c : Dev nD) :
    W2 m ρ c (Proc.devRef .tc main_v1)
      = shapeCast S1600000 (extractStridedSlice S1x1600000 ![0, 0] (m ((c : Thread nD τ).loc main_arg1)) slices_S2x1600000_S1x1600000_0_0) shapeCasts_S1x1600000_S1600000 := by
  rw [W2_of_ne m ρ c main_v1 (by decide)]
  show StableHlo.after hostOps0 (W0 m ρ c) (Proc.devRef .tc main_v1) = _
  after_results
  rfl
theorem targets_eq (c : Dev nD) :
    W2 m ρ c (Proc.devRef .tc main_v3)
      = shapeCast S1600000 (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results
  rfl

/-- The first call leaves the first layer of its entry arrays in `main_v23`. -/
theorem hidden_at_exit (c : Dev nD) : W2 m ρ c (Proc.devRef .tc main_v23) = Regions.G0 (V1 m ρ) c :=
  (W2_arr m ρ c 5).trans (Regions.final0 (V1 m ρ) c)

/-! ## The second call's entry -/

/-- The second host stretch does not write the hidden features. -/
theorem entry1_hidden (c : Dev nD) : V3 m ρ c main_v23 = Regions.G0 (V1 m ρ) c :=
  (StableHlo.after_of_forall_not_mem (b := Proc.devRef .tc main_v23) _ _ (by unwritten hostOps1)).trans (hidden_at_exit m ρ c)

theorem entry1_arg5 (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)
theorem entry1_arg6 (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)
theorem entry1_arg7 (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

/-- The second host stretch leaves in `main_v42` the aggregation of the hidden features over the same edge list. -/
theorem entry1_agg (c : Dev nD) :
    V3 m ρ c main_v42 = Cert.ReferenceIdeal.Layers.aggOf (F := Ideal) (Regions.G0 (V1 m ρ) c) (m ((c : Thread nD τ).loc main_arg1)) := by
  show StableHlo.after hostOps1 (W2 m ρ c) (Proc.devRef .tc main_v42) = _
  have hs := sources_eq m ρ c
  have ht := targets_eq m ρ c
  have hh := hidden_at_exit m ρ c
  generalize W2 m ρ c = Wv at hs ht hh ⊢
  after_results_simp
  rw [hs, ht, hh]
  rfl

/-! ## The result -/

/-- The result buffer after the run is the reference's function of the launch contents of the eight arguments. -/
theorem result_eq (c : Dev nD) :
    W4 m ρ c (Proc.devRef .tc main_v43)
      = Cert.ReferenceIdeal.Layers.result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ((Regions.final1 (V3 m ρ) c).trans ?_)
  rw [Regions.G1_of (V3 m ρ) c (entry1_agg m ρ c) (entry1_hidden m ρ c) (entry1_arg5 m ρ c) (entry1_arg7 m ρ c) (entry1_arg6 m ρ c)]
  rw [Regions.G0_of (V1 m ρ) c (entry0_agg m ρ c) (entry0_arg0 m ρ c) (entry0_arg2 m ρ c) (entry0_arg4 m ρ c) (entry0_arg3 m ρ c)]
  rfl

end Cert.KernelIdeal.HostSide

end
-- ==== Proof.lean ====
/-
  The kernel — two graph-convolution layers whose linear part, normalisation and clamp run as two pallas_calls over
  tiles of 5000 nodes, the neighbour aggregation staying on the host — against the plain reference.

  On the extended reals both programs compute, for node p and output feature q,
      lin(a, x)[p, q] = Σ_k a[p,k]·Wl[q,k] + Σ_k x[p,k]·Wr[q,k] + b[q],
  the first layer then dividing each row by its Euclidean length (bounded below by the guard constant) and clamping at
  zero, with a = the mean of x over each node's incoming edges; the second layer is lin alone, of the first layer's
  result h and of the mean of h over the same edges. The kernel's changes of number format are the identity there, its
  matrix products into a zero accumulator are the reference's contractions, and the one difference in the order of
  operations — the kernel adds the bias after both products, the reference between them — is commutativity and
  associativity of the sum (Proof/Spec.lean), which hold on the extended reals without any finiteness: the
  precondition is never opened.

  The pieces: the bodies' stored tiles entry by entry (Proof/Body.lean); each call's result array as the layer of the
  arrays it is entered with, twenty disjoint tiles covering the array (Proof/Regions.lean); the host stretches between the
  calls, whose aggregation is operation for operation the reference's and is carried closed (Proof/HostSide.lean); the
  reference read one operation at a time (Proof/Layers.lean); the kernel's run with its result array named
  (Proof/KRun.lean). The frames of the two kernel programs are the generated ones, the reference's is its generated run.
-/
import proofs.«136180_j90606630076834_1_alg».proof.Defs
import proofs.«136180_j90606630076834_1_alg».proof.Proof.Gen.Kernel
import proofs.«136180_j90606630076834_1_alg».proof.Proof.Gen.Kernel.Skeleton
import proofs.«136180_j90606630076834_1_alg».proof.Proof.Gen.Kernel.Launch
import proofs.«136180_j90606630076834_1_alg».proof.Proof.Gen.Kernel.Points
import proofs.«136180_j90606630076834_1_alg».proof.Proof.Gen.Kernel.Frame
import proofs.«136180_j90606630076834_1_alg».proof.Proof.Gen.KernelIdeal
import proofs.«136180_j90606630076834_1_alg».proof.Proof.Gen.KernelIdeal.Skeleton
import proofs.«136180_j90606630076834_1_alg».proof.Proof.Gen.KernelIdeal.Launch
import proofs.«136180_j90606630076834_1_alg».proof.Proof.Gen.KernelIdeal.Points
import proofs.«136180_j90606630076834_1_alg».proof.Proof.Gen.KernelIdeal.Frame
import proofs.«136180_j90606630076834_1_alg».proof.Proof.Gen.ReferenceIdeal
import proofs.«136180_j90606630076834_1_alg».proof.Proof.Gen.Pre_finite_inputs
import proofs.«136180_j90606630076834_1_alg».proof.Proof.Gen.ReferenceIdeal.Run
import proofs.«136180_j90606630076834_1_alg».proof.Proof.Gen.ReferenceIdeal.Read
import proofs.«136180_j90606630076834_1_alg».proof.Proof.KRun
import proofs.«136180_j90606630076834_1_alg».proof.Proof.Layers
import proofs.«136180_j90606630076834_1_alg».proof.Proof.HostSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result array at the same function of the argument arrays: the kernel's by its named run
    and the reading of its regions and host stretches, the reference's by its generated run read as two layers; the
    arguments agree by hypothesis. -/
theorem algebraic : Cert.algebraic_KernelIdeal_ReferenceIdeal := by
  intro m ρ m' ρ' _ hagree
  refine ⟨fun c => Cert.ReferenceIdeal.Layers.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.HostSide.result_eq m ρ c), (h c).2⟩)
      (Cert.KernelIdeal.RunNamed.run_named (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7⟩ := hagree c
    rw [Cert.ReferenceIdeal.Read.val_main_v66_eq, Cert.ReferenceIdeal.Layers.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
